-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x1024_S8192x1024 : S4x2048x1024.ShapeCasts S8192x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x1024_S4x2048x1024_2_0_01_1_n_n_wf : DotDims.WF S4x2048x1024 S1024x1024 S4x2048x1024 [2] [0] [0, 1] [1] [] []

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf

class Facts : Prop extends Facts₀ where

variable [Facts]
-- ==== Proof.Chain.lean ====
/-
  The mathematics both programs compute, stated once over the extended reals.

  A token is a row `x` of 1024 numbers. It is multiplied by a 1024 × 1024 matrix `w`, the result by a second
  matrix `a1`, that result by a third `a2`; a bias `b` is added to the last row and `tanh` is taken entrywise:
      rowOut x w a1 a2 b d = tanh ( Σ k3, ( Σ k2, ( Σ k1, x k1 · w k1 k2 ) · a1 k2 k3 ) · a2 k3 d  +  b d ).
  The sums are nested exactly in this order on both sides, so nothing but the definition of a matrix product is
  used: no factor is moved across a sum, and the inputs may be any extended reals.

  `out3` is that function over the [4, 2048, 1024] array of tokens, `out2` the same over the array flattened to
  [8192, 1024] with the bias given as a [1, 1024] row. `out3_eq_out2` says the two agree when the flattened array
  holds token (b, t) in row 2048 · b + t.
-/
import Idealize.ShloMosaic.PureOps.Ideal
import Idealize.ShloMosaic.Lib.ValueIdx

noncomputable section

open scoped BigOperators

namespace Cert.DenseChain

open Idealize.ShloMosaic Idealize.ShloMosaic.ValueIdx

/-- The tokens: 4 batches of 2048 rows of 1024 numbers. -/
abbrev Tok : Shape := ⟨3, ![4, 2048, 1024]⟩
/-- The same rows in one list of 8192. -/
abbrev Flat : Shape := ⟨2, ![8192, 1024]⟩
/-- A square weight matrix. -/
abbrev Sq : Shape := ⟨2, ![1024, 1024]⟩
/-- The bias, as a vector and as a one-row matrix. -/
abbrev Bias : Shape := ⟨1, ![1024]⟩
abbrev BiasRow : Shape := ⟨2, ![1, 1024]⟩

/-- One row through the three products, the bias and `tanh`, read at column `d`. -/
def rowOut (x : Fin 1024 → EReal) (w a1 a2 : Fin 1024 → Fin 1024 → EReal) (b : Fin 1024 → EReal) (d : Fin 1024) : EReal :=
  Ideal.tanh ((∑ k3 : Fin 1024, (∑ k2 : Fin 1024, (∑ k1 : Fin 1024, x k1 * w k1 k2) * a1 k2 k3) * a2 k3 d) + b d)

/-- A square matrix by its row and column. -/
def mat (W : FVec Ideal Sq .f32) : Fin 1024 → Fin 1024 → EReal := fun k j => W (ix2 k j)

/-- The result over the [4, 2048, 1024] array: entry (b, t, d) is row (b, t) through the chain, at column d. -/
def out3 (X : FVec Ideal Tok .f32) (W A1 A2 : FVec Ideal Sq .f32) (B : FVec Ideal Bias .f32) : FVec Ideal Tok .f32 :=
  fun i => rowOut (fun k => X (ix3 (i 0) (i 1) k)) (mat W) (mat A1) (mat A2) (fun j => B (ix1 j)) (i 2)

/-- The result over the flattened [8192, 1024] array: entry (r, d) is row r through the chain, at column d. -/
def out2 (X : FVec Ideal Flat .f32) (W A1 A2 : FVec Ideal Sq .f32) (B : FVec Ideal BiasRow .f32) : FVec Ideal Flat .f32 :=
  fun i => rowOut (fun k => X (ix2 (i 0) k)) (mat W) (mat A1) (mat A2) (fun j => B (ix2 0 j)) (i 1)

/-- Row 2048 · b + t of the flattened result is token (b, t) of the unflattened one, when the flattened input holds
    token (b, t) in that row and the one-row bias holds the bias. -/
theorem out2_flat (X : FVec Ideal Tok .f32) (X2 : FVec Ideal Flat .f32) (W A1 A2 : FVec Ideal Sq .f32)
    (B : FVec Ideal Bias .f32) (B2 : FVec Ideal BiasRow .f32)
    (hX : ∀ (r : Fin 8192) (b : Fin 4) (t : Fin 2048) (k : Fin 1024), r.val = b.val * 2048 + t.val → X2 (ix2 r k) = X (ix3 b t k))
    (hB : ∀ j : Fin 1024, B2 (ix2 0 j) = B (ix1 j))
    (r : Fin 8192) (b : Fin 4) (t : Fin 2048) (d : Fin 1024) (hr : r.val = b.val * 2048 + t.val) :
    out2 X2 W A1 A2 B2 (ix2 r d) = out3 X W A1 A2 B (ix3 b t d) := by
  unfold out2 out3
  have e1 : (fun k => X2 (ix2 r k)) = fun k => X (ix3 b t k) := funext fun k => hX r b t k hr
  have e2 : (fun j => B2 (ix2 0 j)) = fun j => B (ix1 j) := funext hB
  show rowOut (fun k => X2 (ix2 r k)) (mat W) (mat A1) (mat A2) (fun j => B2 (ix2 0 j)) d
    = rowOut (fun k => X (ix3 b t k)) (mat W) (mat A1) (mat A2) (fun j => B (ix1 j)) d
  rw [e1, e2]

end Cert.DenseChain

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.BlockValue.lean ====
/-
  What the kernel body computes on one block, entry by entry.

  The body loads a block of 512 rows, the three weight matrices and the one-row bias, and stores
  tanh (((rows · w) · a1) · a2 + bias). Narrowing to bf16 changes nothing over the extended reals, and each product
  accumulates into zero, so entry (p, q) of what is stored is row p of the block sent through the chain of
  `Chain.lean`, read at column q.
-/
import proofs.«141371_j81020263071912_1_alg».proof.Proof.Gen.KernelIdeal.Skeleton
import proofs.«141371_j81020263071912_1_alg».proof.Proof.Chain
import proofs.«141371_j81020263071912_1_alg».proof.Proof.LibDotSum
import Idealize.ShloMosaic.Lib.Pipeline.Value
import Idealize.ShloMosaic.Lib.ValueIdx
import Idealize.ShloMosaic.PureOps.Ideal.Laws

noncomputable section

open scoped BigOperators

namespace Cert.KernelIdeal.Block

open Idealize.ShloMosaic Idealize.ShloMosaic.ValueIdx Cert.KernelIdeal Cert.KernelIdeal.Gen Cert.DenseChain

/-- One product of the body: a 512-row block times a weight matrix narrowed to bf16, into the zero accumulator. At
    (p, c) it is the sum over k of A (p, k) · B (k, c); the narrowing is the identity on extended reals. -/
theorem product_apply {φ : FTy} (A : FVec Ideal S512x1024 φ) (B : Vec Ideal S1024x1024 .f32) (p : Fin 512) (c : Fin 1024) :
    matmul dot_S512x1024_S1024x1024_S512x1024_1_0_0_1_n_n none A (truncf .bf16 B bitsLt_bf16_f32)
        (constant (F := Ideal) S512x1024 .f32 0x00000000#32) (ix2 p c)
      = ∑ k : Fin 1024, A (ix2 p k) * B (ix2 k c) :=
  Cert.Lib.matmul_rc_apply dot_S512x1024_S1024x1024_S512x1024_1_0_0_1_n_n rfl rfl rfl rfl rfl rfl none A
    (truncf .bf16 B bitsLt_bf16_f32) p c

/-- The one-row bias spread over the block's 512 rows reads the bias at the column. -/
theorem bias_apply (b : FVec Ideal S1x1024 .f32) (p : Fin 512) (q : Fin 1024) :
    broadcastTo S512x1024 b broadcasts_S1x1024_S512x1024 (ix2 p q) = b (ix2 0 q) :=
  broadcastTo_apply b broadcasts_S1x1024_S512x1024 (ix2 p q) (ix2 0 q) (fun a => match a with
    | ⟨0, _⟩ => by show (0 : Nat) = if (1 : Nat) = 1 then 0 else _; rw [if_pos rfl]
    | ⟨1, _⟩ => by show q.val = if (1024 : Nat) = 1 then 0 else q.val; rw [if_neg (by decide)])

/-- Entry (p, q) of what the body stores is row p of the loaded block through the chain, at column q. -/
theorem stored_apply (x0 : Vec Ideal S512x1024 .f32) (x1 x2 x3 : Vec Ideal S1024x1024 .f32) (x4 : Vec Ideal S1x1024 .f32)
    (p : Fin 512) (q : Fin 1024) :
    k0_pay1 (F := Ideal) x0 x1 x2 x3 x4 (ix2 p q)
      = rowOut (fun k => x0 (ix2 p k)) (mat x1) (mat x2) (mat x3) (fun j => x4 (ix2 0 j)) q := by
  unfold k0_pay1
  rw [shapeCast_self, shapeCast_self]
  show Ideal.tanh (matmul dot_S512x1024_S1024x1024_S512x1024_1_0_0_1_n_n none _ (truncf .bf16 x3 bitsLt_bf16_f32)
      (constant (F := Ideal) S512x1024 .f32 0x00000000#32) (ix2 p q)
      + broadcastTo S512x1024 x4 broadcasts_S1x1024_S512x1024 (ix2 p q)) = _
  rw [product_apply, bias_apply]
  unfold rowOut mat
  refine congrArg (fun s => Ideal.tanh (s + x4 (ix2 0 q))) (Finset.sum_congr rfl fun k3 _ => ?_)
  refine congrArg (· * x3 (ix2 k3 q)) ?_
  show matmul dot_S512x1024_S1024x1024_S512x1024_1_0_0_1_n_n none _ (truncf .bf16 x2 bitsLt_bf16_f32)
      (constant (F := Ideal) S512x1024 .f32 0x00000000#32) (ix2 p k3) = _
  rw [product_apply]
  refine Finset.sum_congr rfl fun k2 _ => ?_
  refine congrArg (· * x2 (ix2 k2 k3)) ?_
  show matmul dot_S512x1024_S1024x1024_S512x1024_1_0_0_1_n_n none _ (truncf .bf16 x1 bitsLt_bf16_f32)
      (constant (F := Ideal) S512x1024 .f32 0x00000000#32) (ix2 p k2) = _
  rw [product_apply]
  rfl

/-- The same entry as an entry of the flattened result: if row p of the loaded block is row `i 0` of the flattened
    input `X`, and q is the column `i 1`, then what the body stores at (p, q) is the flattened result at `i`. -/
theorem stored_eq_out2 (x0 : Vec Ideal S512x1024 .f32) (x1 x2 x3 : Vec Ideal S1024x1024 .f32) (x4 : Vec Ideal S1x1024 .f32)
    (X : FVec Ideal S8192x1024 .f32) (p : Fin 512) (q : Fin 1024) (i : S8192x1024.Idx)
    (hrow : ∀ k : Fin 1024, x0 (ix2 p k) = X (ix2 (i 0) k)) (hcol : i 1 = q) :
    k0_pay1 (F := Ideal) x0 x1 x2 x3 x4 (ix2 p q) = out2 X x1 x2 x3 x4 i := by
  rw [stored_apply]
  unfold out2
  rw [hcol, funext hrow]

end Cert.KernelIdeal.Block

end
-- ==== Proof.ArrayValue.lean ====
/-
  From blocks to the array the kernel writes.

  The grid has 16 points. Point t reads rows 512 t … 512 t + 511 of the flattened input, the three weight matrices and
  the one-row bias whole, and writes rows 512 t … 512 t + 511 of the flattened output. By `BlockValue.lean` what it
  writes is those rows of `out2` of the arrays as the region finds them. The 16 row ranges tile the 8192 rows, so the
  output array ends holding `out2` of those arrays.
-/
import proofs.«141371_j81020263071912_1_alg».proof.Proof.Gen.KernelIdeal.Frame
import proofs.«141371_j81020263071912_1_alg».proof.Proof.BlockValue
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.KernelIdeal.Block Cert.DenseChain Idealize.ShloMosaic.ValueIdx

variable (m : (ℓ : Loc nD τ sig) → Buf (Elt Ideal) ℓ)

theorem hz : (![0, 0] : Fin 2 → Nat) = fun _ => 0 := funext fun a => by fin_cases a <;> rfl

/-- The arrays as the region finds them, at their literal shapes: the flattened input, the three weight matrices, the
    one-row bias. -/
abbrev xs (c : Dev nD) : FVec Ideal S8192x1024 .f32 := V m c main_v0
abbrev w0 (c : Dev nD) : FVec Ideal S1024x1024 .f32 := V m c main_arg1
abbrev w1 (c : Dev nD) : FVec Ideal S1024x1024 .f32 := V m c main_arg2
abbrev w2 (c : Dev nD) : FVec Ideal S1024x1024 .f32 := V m c main_arg3
abbrev bs (c : Dev nD) : FVec Ideal S1x1024 .f32 := V m c main_v1

/-- The flattened result of those arrays. -/
abbrev G (c : Dev nD) : FVec Ideal S8192x1024 .f32 := out2 (xs m c) (w0 m c) (w1 m c) (w2 m c) (bs m c)

/-- The printed index maps over the grid: the input's and the output's row block is the point's number, every other
    block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The input block at point t, at (x 0, x 1), is the flattened input at row 512 t + x 0 and the same column. -/
theorem rows_apply (c : Dev nD) (t : Fin cfg0.N) (x : S512x1024.Idx) (i : S8192x1024.Idx)
    (h0 : (i 0).val = 512 * t.val + (x 0).val) (h1 : (i 1).val = (x 1).val) :
    (iblk m c 0 t : Vec Ideal S512x1024 .f32) x = xs m c i := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 512 + 1 * (x 0).val = (i 0).val; rw [e0, h0]; omega
  | ⟨1, _⟩ => show win0_0.index t (1 : Fin 2) * 1024 + 1 * (x 1).val = (i 1).val; rw [e1, h1]; omega

/-- Each weight matrix's block is the whole matrix, at every point. -/
theorem whole1 (c : Dev nD) (t : Fin cfg0.N) : (iblk m c 1 t : Vec Ideal S1024x1024 .f32) = w0 m c := by
  obtain ⟨-, -, e0, e1, -⟩ := idx_facts t
  funext x
  unfold iblk
  rw [View.read_apply]
  show V m c main_arg1 _ = V m c main_arg1 x
  congr 1
  funext a
  apply Fin.ext
  match a with
  | ⟨0, _⟩ => show win0_1.index t (0 : Fin 2) * 1024 + 1 * (x 0).val = (x 0).val; rw [e0]; omega
  | ⟨1, _⟩ => show win0_1.index t (1 : Fin 2) * 1024 + 1 * (x 1).val = (x 1).val; rw [e1]; omega
theorem whole2 (c : Dev nD) (t : Fin cfg0.N) : (iblk m c 2 t : Vec Ideal S1024x1024 .f32) = w1 m c := by
  obtain ⟨-, -, -, -, e0, e1, -⟩ := idx_facts t
  funext x
  unfold iblk
  rw [View.read_apply]
  show V m c main_arg2 _ = V m c main_arg2 x
  congr 1
  funext a
  apply Fin.ext
  match a with
  | ⟨0, _⟩ => show win0_2.index t (0 : Fin 2) * 1024 + 1 * (x 0).val = (x 0).val; rw [e0]; omega
  | ⟨1, _⟩ => show win0_2.index t (1 : Fin 2) * 1024 + 1 * (x 1).val = (x 1).val; rw [e1]; omega
theorem whole3 (c : Dev nD) (t : Fin cfg0.N) : (iblk m c 3 t : Vec Ideal S1024x1024 .f32) = w2 m c := by
  obtain ⟨-, -, -, -, -, -, e0, e1, -⟩ := idx_facts t
  funext x
  unfold iblk
  rw [View.read_apply]
  show V m c main_arg3 _ = V m c main_arg3 x
  congr 1
  funext a
  apply Fin.ext
  match a with
  | ⟨0, _⟩ => show win0_3.index t (0 : Fin 2) * 1024 + 1 * (x 0).val = (x 0).val; rw [e0]; omega
  | ⟨1, _⟩ => show win0_3.index t (1 : Fin 2) * 1024 + 1 * (x 1).val = (x 1).val; rw [e1]; omega
/-- The bias row's block is the whole row, at every point. -/
theorem whole4 (c : Dev nD) (t : Fin cfg0.N) : (iblk m c 4 t : Vec Ideal S1x1024 .f32) = bs m c := by
  obtain ⟨-, -, -, -, -, -, -, -, e0, e1, -⟩ := idx_facts t
  funext x
  unfold iblk
  rw [View.read_apply]
  show V m c main_v1 _ = V m c main_v1 x
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 1024 + 1 * (x 1).val = (x 1).val; rw [e1]; omega

/-- What point t writes back is rows 512 t … 512 t + 511 of `G`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero hz]
  simp only [View.ld_unit_zero (S := S512x1024) hz, View.ld_unit_zero (S := S1024x1024) hz, View.ld_unit_zero (S := S1x1024) hz]
  rw [whole1, whole2, whole3, whole4]
  obtain ⟨-, -, -, -, -, -, -, -, -, -, e0, e1⟩ := idx_facts t
  funext j
  obtain ⟨p, q, rfl⟩ : ∃ (p : Fin 512) (q : Fin 1024), j = ix2 p q := ⟨j 0, j 1, eq_ix2 j⟩
  show k0_pay1 (F := Ideal) (iblk m c 0 t) (w0 m c) (w1 m c) (w2 m c) (bs m c) (ix2 p q)
    = G m c (((cfg0.win 5).blk t).view.emb (ix2 p q))
  refine stored_eq_out2 _ _ _ _ _ (xs m c) p q _ (fun k => rows_apply m c t (ix2 p k) _ ?_ ?_) ?_
  · show win0_5.index t (0 : Fin 2) * 512 + 1 * p.val = 512 * t.val + p.val
    rw [e0]; omega
  · rfl
  · exact Fin.ext (show win0_5.index t (1 : Fin 2) * 1024 + 1 * q.val = q.val by rw [e1]; omega)

/-- An index of the output array is in point t's block iff each coordinate is in the block's range on its axis. -/
theorem mem_blk (t : Fin cfg0.N) (i : S8192x1024.Idx) :
    i ∈ ((cfg0.win 5).blk t).view.set
      ↔ ∀ a : Fin 2, win0_5.index t a * S512x1024.size a ≤ (i a).val ∧ (i a).val < win0_5.index t a * S512x1024.size a + S512x1024.size a := by
  show i ∈ ((View.whole main_v2).slice (win0_5.rect t)).set ↔ _
  rw [View.set_slice_whole, Rect.mem_set_unit]
  exact Iff.rfl

/-- Row r is in the block of point r / 512: the 16 blocks tile the array. -/
theorem cover (i : S8192x1024.Idx) :
    ∃ t : Fin cfg0.N, (cfg0.win 5).flush t = true ∧ i ∈ ((cfg0.win 5).blk t).view.set := by
  have hN : cfg0.N = 16 := N_0
  have hi0 : (i 0).val < 8192 := (i 0).isLt
  have hi1 : (i 1).val < 1024 := (i 1).isLt
  obtain ⟨t, ht⟩ : ∃ t : Fin cfg0.N, t.val = (i 0).val / 512 := ⟨⟨(i 0).val / 512, by omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    rw [e0, ht]; omega
  | ⟨1, _⟩ =>
    show win0_5.index t (1 : Fin 2) * 1024 ≤ (i 1).val ∧ (i 1).val < win0_5.index t (1 : Fin 2) * 1024 + 1024
    rw [e1]; omega

/-- The output array after the run is `G`. -/
theorem final (c : Dev nD) : (dats m 0 c).arrAt 5 cfg0.N = G m c :=
  (dats m 0 c).arrAt_eq_of_cover 5 (G m c) (fun t _ => flushed_eq m c t) cover

end Cert.KernelIdeal.Arr

end
-- ==== Proof.Flatten.lean ====
/-
  Flattening the tokens and back.

  Reshaping [4, 2048, 1024] to [8192, 1024] keeps the row-major order: token (b, t) becomes row 2048 · b + t, the
  column stays. Reshaping the bias [1024] to [1, 1024] puts it in row 0. So the flattened result of the flattened
  input and the one-row bias, reshaped back to [4, 2048, 1024], is the unflattened result `out3`.
-/
import proofs.«141371_j81020263071912_1_alg».proof.Proof.Chain
import Idealize.ShloMosaic.Lib.Pipeline.Value
import Idealize.ShloMosaic.Lib.ValueIdx

noncomputable section

namespace Cert.DenseChain

open Idealize.ShloMosaic Idealize.ShloMosaic.ValueIdx

variable {α : Type}

/-- The flattened array at row 2048 · b + t reads token (b, t). -/
theorem flatten_apply (X : Tok.Idx → α) (h : Tok.ShapeCasts Flat) (r : Fin 8192) (b : Fin 4) (t : Fin 2048) (k : Fin 1024)
    (hr : r.val = b.val * 2048 + t.val) : shapeCast Flat X h (ix2 r k) = X (ix3 b t k) := by
  refine shapeCast_apply X h (ix2 r k) (ix3 b t k) ?_
  rw [Shape.rowMajor_val_three, Shape.rowMajor_val_two]
  show (b.val * 2048 + t.val) * 1024 + k.val = r.val * 1024 + k.val
  rw [hr]

/-- The array reshaped back reads, at token (b, t), row 2048 · b + t of the flattened one. -/
theorem unflatten_apply (Y : Flat.Idx → α) (h : Flat.ShapeCasts Tok) (r : Fin 8192) (b : Fin 4) (t : Fin 2048) (d : Fin 1024)
    (hr : r.val = b.val * 2048 + t.val) : shapeCast Tok Y h (ix3 b t d) = Y (ix2 r d) := by
  refine shapeCast_apply Y h (ix3 b t d) (ix2 r d) ?_
  rw [Shape.rowMajor_val_three, Shape.rowMajor_val_two]
  show r.val * 1024 + d.val = (b.val * 2048 + t.val) * 1024 + d.val
  rw [hr]

/-- The bias as a one-row matrix reads the bias at the column. -/
theorem biasRow_apply (B : Bias.Idx → α) (h : Bias.ShapeCasts BiasRow) (j : Fin 1024) :
    shapeCast BiasRow B h (ix2 0 j) = B (ix1 j) := by
  refine shapeCast_apply B h (ix2 0 j) (ix1 j) ?_
  rw [Shape.rowMajor_val_one, Shape.rowMajor_val_two]
  show j.val = 0 * 1024 + j.val
  omega

/-- The flattened result of the flattened input and the one-row bias, reshaped back, is the unflattened result. -/
theorem unflatten_out2 (X : FVec Ideal Tok .f32) (W A1 A2 : FVec Ideal Sq .f32) (B : FVec Ideal Bias .f32)
    (h1 : Tok.ShapeCasts Flat) (h2 : Bias.ShapeCasts BiasRow) (h3 : Flat.ShapeCasts Tok) :
    shapeCast Tok (out2 (shapeCast Flat X h1) W A1 A2 (shapeCast BiasRow B h2)) h3 = out3 X W A1 A2 B := by
  funext i
  obtain ⟨b, t, d, rfl⟩ : ∃ (b : Fin 4) (t : Fin 2048) (d : Fin 1024), i = ix3 b t d := ⟨i 0, i 1, i 2, eq_ix3 i⟩
  have hb : b.val < 4 := b.isLt
  have ht : t.val < 2048 := t.isLt
  rw [unflatten_apply _ h3 ⟨b.val * 2048 + t.val, by omega⟩ b t d rfl]
  exact out2_flat X (shapeCast Flat X h1) W A1 A2 B (shapeCast BiasRow B h2)
    (fun r b' t' k hr => flatten_apply X h1 r b' t' k hr) (fun j => biasRow_apply B h2 j) _ b t d rfl

end Cert.DenseChain

end
-- ==== Proof.KernelRun.lean ====
/-
  The kernel program's run, read as a value.

  Before the region the host flattens the tokens to [8192, 1024] and makes the bias a [1, 1024] row; the region leaves
  `out2` of those and the three weight matrices in its output array (`ArrayValue.lean`); after the region the host
  reshapes that array back to [4, 2048, 1024]. By `Flatten.lean` the result is `out3` of the five arguments.
-/
import proofs.«141371_j81020263071912_1_alg».proof.Proof.ArrayValue
import proofs.«141371_j81020263071912_1_alg».proof.Proof.Flatten
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.DenseChain Idealize.ShloMosaic.ValueIdx

variable (m : (ℓ : Loc nD τ sig) → Buf (Elt Ideal) ℓ) (ρ : Dev nD → PrngReg)

/-- The region finds the tokens flattened. -/
theorem xs_eq (c : Dev nD) :
    xs m c = shapeCast S8192x1024 (m ((c : Thread nD τ).loc main_arg0)) shapeCasts_S4x2048x1024_S8192x1024 := by
  show StableHlo.after hostOps0 (fun b => m (c, b)) (Proc.devRef .tc main_v0) = _
  after_results
  rfl

/-- The region finds the bias as a one-row matrix. -/
theorem bs_eq (c : Dev nD) :
    bs m c = shapeCast S1x1024 (m ((c : Thread nD τ).loc main_arg4)) shapeCasts_S1024_S1x1024 := by
  show StableHlo.after hostOps0 (fun b => m (c, b)) (Proc.devRef .tc main_v1) = _
  after_results
  rfl

/-- The program's result: the region's output array reshaped back is `out3` of the five arguments. -/
theorem result_eq (c : Dev nD) :
    Pipeline.afterTail₀ cfgs (dats m) 0 (V0 m) [hostOps1] c main_v3
      = out3 (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.devRef .tc main_v2)
      = G m c := (Pipeline.withArrays_arr spec0 launch0.win.arr_inj c _ _ 5).trans (final m c)
  show shapeCast S4x2048x1024 (Pipeline.withArrays (cfgs 0).spec c (V0 m c) (fun w => (dats m 0 c).arrAt w (cfgs 0).N)
      (Proc.devRef .tc main_v2)) shapeCasts_S8192x1024_S4x2048x1024 = _
  rw [hA]
  unfold G
  rw [xs_eq, bs_eq]
  show shapeCast S4x2048x1024 (out2 _ (V m c main_arg1) (V m c main_arg2) (V m c main_arg3) _) _ = _
  rw [V_main_arg1, V_main_arg2, V_main_arg3]
  exact unflatten_out2 _ _ _ _ _ _ _ _

/-- THE RUN: every weakly fair execution of the kernel program terminates with its result at `out3` of the five
    arguments, and the arguments unchanged. -/
theorem run : θ_run defs (onTc (τ := τ) (main (F := Ideal))) ⟨m, fun _ => 0, ρ⟩ fun r => ∀ c : Dev nD,
      r.2.mem ((c.tc : Thread nD τ).loc main_v3)
        = out3 (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Arr

end
-- ==== Proof.RefValue.lean ====
/-
  The reference's result is `out3`.

  The reference contracts the tokens' last axis against each weight matrix's first axis three times, adds the bias
  spread over the batch and row axes, and takes `tanh`. Read at an index (b, t, d), each contraction is the sum over
  k of the left operand at (b, t, k) times the matrix at (k, d), and the spread bias is the bias at d: entry (b, t, d)
  is token (b, t) through the chain of `Chain.lean`, at column d.
-/
import proofs.«141371_j81020263071912_1_alg».proof.Proof.Gen.ReferenceIdeal.Read
import proofs.«141371_j81020263071912_1_alg».proof.Proof.Chain

noncomputable section

open scoped BigOperators

namespace Cert.ReferenceIdeal.RefValue

open Idealize.ShloMosaic Idealize.ShloMosaic.ValueIdx Cert.ReferenceIdeal Cert.ReferenceIdeal.Read Cert.DenseChain

variable (b : Fin 4) (t : Fin 2048) (d k : Fin 1024)

/-- The left operand's index of each contraction at output index (b, t, d) and contraction coordinate k: (b, t, k). -/
theorem lidx0_eq : lidx_main_v0 (ix3 b t d) k = ix3 b t k :=
  funext fun a => Fin.ext (by match a with | ⟨0, _⟩ => rfl | ⟨1, _⟩ => rfl | ⟨2, _⟩ => rfl)
theorem lidx1_eq : lidx_main_v1 (ix3 b t d) k = ix3 b t k :=
  funext fun a => Fin.ext (by match a with | ⟨0, _⟩ => rfl | ⟨1, _⟩ => rfl | ⟨2, _⟩ => rfl)
theorem lidx2_eq : lidx_main_v2 (ix3 b t d) k = ix3 b t k :=
  funext fun a => Fin.ext (by match a with | ⟨0, _⟩ => rfl | ⟨1, _⟩ => rfl | ⟨2, _⟩ => rfl)
/-- The right operand's: (k, d). -/
theorem ridx0_eq : ridx_main_v0 (ix3 b t d) k = ix2 k d :=
  funext fun a => Fin.ext (by match a with | ⟨0, _⟩ => rfl | ⟨1, _⟩ => rfl)
theorem ridx1_eq : ridx_main_v1 (ix3 b t d) k = ix2 k d :=
  funext fun a => Fin.ext (by match a with | ⟨0, _⟩ => rfl | ⟨1, _⟩ => rfl)
theorem ridx2_eq : ridx_main_v2 (ix3 b t d) k = ix2 k d :=
  funext fun a => Fin.ext (by match a with | ⟨0, _⟩ => rfl | ⟨1, _⟩ => rfl)
/-- The spread bias is read at the column. -/
theorem bidx_eq : idx_main_v3 (idx_main_v4 (ix3 b t d)) = ix1 d :=
  funext fun a => Fin.ext (by match a with | ⟨0, _⟩ => rfl)

/-- The reference's last stage is `out3` of the five arguments. -/
theorem val_eq_out3 (x0 : (⟨S4x2048x1024, .f32⟩ : BufTy).Contents (Elt Ideal)) (x1 x2 x3 : (⟨S1024x1024, .f32⟩ : BufTy).Contents (Elt Ideal))
    (x4 : (⟨S1024, .f32⟩ : BufTy).Contents (Elt Ideal)) :
    val_main_v6 (F := Ideal) x0 x1 x2 x3 x4 = out3 x0 x1 x2 x3 x4 := by
  funext i
  obtain ⟨b, t, d, rfl⟩ : ∃ (b : Fin 4) (t : Fin 2048) (d : Fin 1024), i = ix3 b t d := ⟨i 0, i 1, i 2, eq_ix3 i⟩
  rw [val_main_v6_apply, val_main_v5_apply, val_main_v2_apply, val_main_v4_apply, val_main_v3_apply]
  show Ideal.tanh ((∑ k, val_main_v1 (F := Ideal) x0 x1 x2 (lidx_main_v2 (ix3 b t d) k) * x3 (ridx_main_v2 (ix3 b t d) k))
      + x4 (idx_main_v3 (idx_main_v4 (ix3 b t d))))
    = Ideal.tanh ((∑ k3 : Fin 1024, (∑ k2 : Fin 1024, (∑ k1 : Fin 1024, x0 (ix3 b t k1) * x1 (ix2 k1 k2)) * x2 (ix2 k2 k3)) * x3 (ix2 k3 d))
      + x4 (ix1 d))
  rw [bidx_eq]
  refine congrArg (fun s => Ideal.tanh (s + x4 (ix1 d))) (Finset.sum_congr rfl fun k3 _ => ?_)
  rw [lidx2_eq, ridx2_eq, val_main_v1_apply]
  refine congrArg (· * x3 (ix2 k3 d)) (Finset.sum_congr rfl fun k2 _ => ?_)
  rw [lidx1_eq, ridx1_eq, val_main_v0_apply]
  refine congrArg (· * x2 (ix2 k2 k3)) (Finset.sum_congr rfl fun k1 _ => ?_)
  rw [lidx0_eq, ridx0_eq]

end Cert.ReferenceIdeal.RefValue

end
-- ==== Proof.lean ====
/-
  The proof of `Cert.Claim`: the kernel program and its reference compute the same function.

  Both programs send every token (a row of 1024 numbers) through three 1024 × 1024 matrix products in a row, add a
  bias and take `tanh` (`Proof/Chain.lean`: `rowOut`, and `out3` over the [4, 2048, 1024] array). The kernel
  flattens the tokens to 8192 rows, runs a grid of 16 points of 512 rows each with the weights held whole, and
  reshapes the rows back; the reference contracts the unflattened array three times on the host. Over the extended
  reals narrowing to bf16 is the identity, a product accumulated into zero is the plain sum, and the kernel's and the
  host's `tanh` are one function, so both results are `out3` of the five arguments, for any inputs: the sums are
  nested in the same order on both sides, and no law that needs finiteness is used.

  `Proof/BlockValue.lean`: what the body stores, entry by entry. `Proof/ArrayValue.lean`: the 16 blocks tile the
  output array, which ends at the flattened result. `Proof/Flatten.lean`: the two reshapes. `Proof/KernelRun.lean`:
  the kernel program's run ends at `out3`. `Proof/RefValue.lean`: the reference's last stage is `out3`.
  The rewrite ledger is empty, so `preserves` is `True`.
-/
import proofs.«141371_j81020263071912_1_alg».proof.Defs
import proofs.«141371_j81020263071912_1_alg».proof.Proof.Gen.Kernel
import proofs.«141371_j81020263071912_1_alg».proof.Proof.Gen.Kernel.Skeleton
import proofs.«141371_j81020263071912_1_alg».proof.Proof.Gen.Kernel.Launch
import proofs.«141371_j81020263071912_1_alg».proof.Proof.Gen.Kernel.Points
import proofs.«141371_j81020263071912_1_alg».proof.Proof.Gen.Kernel.Frame
import proofs.«141371_j81020263071912_1_alg».proof.Proof.Gen.KernelIdeal
import proofs.«141371_j81020263071912_1_alg».proof.Proof.Gen.KernelIdeal.Skeleton
import proofs.«141371_j81020263071912_1_alg».proof.Proof.Gen.KernelIdeal.Launch
import proofs.«141371_j81020263071912_1_alg».proof.Proof.Gen.KernelIdeal.Points
import proofs.«141371_j81020263071912_1_alg».proof.Proof.Gen.KernelIdeal.Frame
import proofs.«141371_j81020263071912_1_alg».proof.Proof.Gen.ReferenceIdeal
import proofs.«141371_j81020263071912_1_alg».proof.Proof.Gen.Pre_finite_inputs
import proofs.«141371_j81020263071912_1_alg».proof.Proof.Gen.ReferenceIdeal.Run
import proofs.«141371_j81020263071912_1_alg».proof.Proof.Gen.ReferenceIdeal.Read
import proofs.«141371_j81020263071912_1_alg».proof.Proof.KernelRun
import proofs.«141371_j81020263071912_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the five arguments, both programs end with `out3` of those arguments. -/
theorem algebraic : Cert.algebraic_KernelIdeal_ReferenceIdeal := by
  intro m ρ m' ρ' _ hagree
  refine ⟨fun c => Cert.DenseChain.out3
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.val_eq_out3,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
